-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel

variable [Facts]

def fn {F : FTy → Type} [FloatOps F] (main_arg0 : FVec F S4000000x7 .f32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  main_v3
-- ==== Kernel.lean ====
abbrev S4000000x7 : Shape := ⟨2, ![4000000, 7]⟩
abbrev S4000000x12 : Shape := ⟨2, ![4000000, 12]⟩
abbrev S4000x7 : Shape := ⟨2, ![4000, 7]⟩
abbrev S4000x12 : Shape := ⟨2, ![4000, 12]⟩
abbrev S4000x1 : Shape := ⟨2, ![4000, 1]⟩
abbrev S4000000x3x4 : Shape := ⟨3, ![4000000, 3, 4]⟩

abbrev nBuf : Space → Nat
  | .hbm => 3
  | .vmem => 4
  | .smem => 0
  | _ => 0

abbrev bufTy : (tb : Table) → Fin (tcTables nBuf tb) → BufTy
  | .hbm, ⟨0, _⟩ => ⟨S4000000x7, .f32⟩
  | .hbm, ⟨1, _⟩ => ⟨S4000000x12, .f32⟩
  | .hbm, ⟨2, _⟩ => ⟨S4000000x3x4, .f32⟩
  | .local _ .vmem, ⟨0, _⟩ => ⟨S4000x7, .f32⟩
  | .local _ .vmem, ⟨1, _⟩ => ⟨S4000x7, .f32⟩
  | .local _ .vmem, ⟨2, _⟩ => ⟨S4000x12, .f32⟩
  | .local _ .vmem, ⟨3, _⟩ => ⟨S4000x12, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4000x7_S4000x7_0_0 : ∀ a, (![0, 0] : Fin 2 → Nat) a + S4000x7.size a ≤ S4000x7.size a
  h_S4000x7 : 0 < S4000x7.numel
  slices_S4000x7_o0_0_S4000x1 : S4000x7.Slices ![0, 0] S4000x1
  slices_S4000x7_o0_1_S4000x1 : S4000x7.Slices ![0, 1] S4000x1
  slices_S4000x7_o0_2_S4000x1 : S4000x7.Slices ![0, 2] S4000x1
  slices_S4000x7_o0_3_S4000x1 : S4000x7.Slices ![0, 3] S4000x1
  slices_S4000x7_o0_4_S4000x1 : S4000x7.Slices ![0, 4] S4000x1
  slices_S4000x7_o0_5_S4000x1 : S4000x7.Slices ![0, 5] S4000x1
  slices_S4000x7_o0_6_S4000x1 : S4000x7.Slices ![0, 6] S4000x1
  concatenates_S4000x1_S4000x1_S4000x1_S4000x1_S4000x1_S4000x1_S4000x1_S4000x1_S4000x1_S4000x1_S4000x1_S4000x1_S4000x12_d1 : Shape.Concatenates [S4000x1, S4000x1, S4000x1, S4000x1, S4000x1, S4000x1, S4000x1, S4000x1, S4000x1, S4000x1, S4000x1, S4000x1] S4000x12 1
  inb_S4000x12_S4000x12_0_0 : ∀ a, (![0, 0] : Fin 2 → Nat) a + S4000x12.size a ≤ S4000x12.size a
  h_S4000x12 : 0 < S4000x12.numel
  shapeCasts_S4000000x12_S4000000x3x4 : S4000000x12.ShapeCasts S4000000x3x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x7.size a ≤ S4000000x7.size a
  hwx0_0 : ∀ i : grid0.Coords, EltTy.bits .f32 = 32 ∨ (Rect.block (s := S4000000x7) S4000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x12.size a ≤ S4000000x12.size a
  hwx0_1 : ∀ i : grid0.Coords, EltTy.bits .f32 = 32 ∨ (Rect.block (s := S4000000x12) S4000x12.size (cc0_transform_1 i) (hinb0_1 i)).WholeWords (EltTy.packing .f32)

variable [Facts₀]

abbrev win0_0 : Pipeline.Window sig grid0 :=
  Pipeline.Window.ofSpec (Memref.whole main_arg0) S4000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x7 : Shape := ⟨2, ![4000000, 7]⟩
abbrev S4000000x1 : Shape := ⟨2, ![4000000, 1]⟩
abbrev S4000000 : Shape := ⟨1, ![4000000]⟩
abbrev S4000000x3 : Shape := ⟨2, ![4000000, 3]⟩
abbrev S_ : Shape := ⟨0, ![]⟩
abbrev S4000000x9 : Shape := ⟨2, ![4000000, 9]⟩
abbrev S4000000x3x3 : Shape := ⟨3, ![4000000, 3, 3]⟩
abbrev S4000000x3x1 : Shape := ⟨3, ![4000000, 3, 1]⟩
abbrev S4000000x3x4 : Shape := ⟨3, ![4000000, 3, 4]⟩

abbrev nBuf : Space → Nat
  | .hbm => 90
  | .vmem => 0
  | .smem => 0
  | _ => 0

abbrev bufTy : (tb : Table) → Fin (tcTables nBuf tb) → BufTy
  | .hbm, ⟨0, _⟩ => ⟨S4000000x7, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S4000000x1, .f32⟩
  | .hbm, ⟨6, _⟩ => ⟨S4000000, .f32⟩
  | .hbm, ⟨7, _⟩ => ⟨S4000000x1, .f32⟩
  | .hbm, ⟨8, _⟩ => ⟨S4000000, .f32⟩
  | .hbm, ⟨9, _⟩ => ⟨S4000000x3, .f32⟩
  | .hbm, ⟨10, _⟩ => ⟨S4000000, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S4000000, .f32⟩
  | .hbm, ⟨15, _⟩ => ⟨S4000000, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000x1, .f32⟩
  | .hbm, ⟨78, _⟩ => ⟨S4000000x1, .f32⟩
  | .hbm, ⟨79, _⟩ => ⟨S4000000x1, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x9, .f32⟩
  | .hbm, ⟨87, _⟩ => ⟨S4000000x3x3, .f32⟩
  | .hbm, ⟨88, _⟩ => ⟨S4000000x3x1, .f32⟩
  | .hbm, ⟨89, _⟩ => ⟨S4000000x3x4, .f32⟩
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_4 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_6 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_7 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_8 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_9 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_10 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩

abbrev nD : Nat := 1
abbrev τ : Topo := Topo.v7x

variable {F : FTy → Type} [FloatOps F]

class Facts₀ : Prop where
  slices_S4000000x7_S4000000x1_0_0 : S4000000x7.Slices ![0, 0] S4000000x1
  shapeCasts_S4000000x1_S4000000 : S4000000x1.ShapeCasts S4000000
  slices_S4000000x7_S4000000x1_0_1 : S4000000x7.Slices ![0, 1] S4000000x1
  slices_S4000000x7_S4000000x1_0_2 : S4000000x7.Slices ![0, 2] S4000000x1
  slices_S4000000x7_S4000000x1_0_3 : S4000000x7.Slices ![0, 3] S4000000x1
  slices_S4000000x7_S4000000x3_0_4 : S4000000x7.Slices ![0, 4] S4000000x3
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x3x1_0_1 : S4000000x3.BroadcastsInDim S4000000x3x1 (![0, 1] : Fin 2 → Fin S4000000x3x1.rank)
  concatenates_S4000000x3x3_S4000000x3x1_S4000000x3x4_d2 : Shape.Concatenates [S4000000x3x3, S4000000x3x1] S4000000x3x4 2

variable [Facts₀]

class Facts : Prop extends Facts₀ where

variable [Facts]
-- ==== Proof.PoseSpec.lean ====
/-
  The layer, as one function. A row of the input holds a quaternion (q0, q1, q2, q3) and a translation
  (tx, ty, tz); the layer sends it to the 3 × 4 matrix [R(q) | t], where R(q) is the rotation matrix of the
  quaternion written out in products of its components:

      R = ⎡ q0² + q1² − q2² − q3²    2 q1 q2 − 2 q0 q3        2 q1 q3 + 2 q0 q2     ⎤
          ⎢ 2 q1 q2 + 2 q0 q3        q0² − q1² + q2² − q3²    2 q2 q3 − 2 q0 q1     ⎥
          ⎣ 2 q1 q3 − 2 q0 q2        2 q2 q3 + 2 q0 q1        q0² − q1² − q2² + q3² ⎦

  Both programs compute every entry with the SAME grouping — a diagonal entry as ((a ∘ b) ∘ c) ∘ d from left to
  right, an off-diagonal entry as (2·u)·v ∓ (2·w)·z — and the same word for the number two, so the entries are
  stated here once, over any float instance, with exactly that grouping: nothing is reassociated, no law of
  arithmetic is used, and finiteness of the input plays no part. What differs between the programs is only
  where an entry is kept: one lays the twelve numbers of a row side by side, [B, 12], and reshapes to [B, 3, 4];
  the other builds the nine rotation entries as [B, 9], reshapes to [B, 3, 3] and appends the translation as a
  fourth column. Entry (b, u, v) of either is entry 4 u + v of row b's twelve.
-/
import Idealize.ShloMosaic.PureOps
import Idealize.ShloMosaic.Lib.ValueIdx

noncomputable section

namespace Cert.Pose

open Idealize.ShloMosaic Idealize.ShloMosaic.ValueIdx

variable {F : FTy → Type} [FloatOps F]

/-- The number two, as the f32 word both programs print for it. -/
def two : F .f32 := FloatOps.ofBits .f32 0x40000000#32

/-- The square of a number: its product with itself. -/
def sq (a : F .f32) : F .f32 := FloatOps.mulf a a

/-- `(2·u)·v − (2·w)·z`. -/
def crossSub (u v w z : F .f32) : F .f32 :=
  FloatOps.subf (FloatOps.mulf (FloatOps.mulf two u) v) (FloatOps.mulf (FloatOps.mulf two w) z)

/-- `(2·u)·v + (2·w)·z`. -/
def crossAdd (u v w z : F .f32) : F .f32 :=
  FloatOps.addf (FloatOps.mulf (FloatOps.mulf two u) v) (FloatOps.mulf (FloatOps.mulf two w) z)

/-- The twelve numbers of one row's pose, [R(q) | t] in row-major order, from the row's seven. -/
def poseRow (r : Fin 7 → F .f32) : Fin 12 → F .f32
  | ⟨0, _⟩ => FloatOps.subf (FloatOps.subf (FloatOps.addf (sq (r 0)) (sq (r 1))) (sq (r 2))) (sq (r 3))
  | ⟨1, _⟩ => crossSub (r 1) (r 2) (r 0) (r 3)
  | ⟨2, _⟩ => crossAdd (r 1) (r 3) (r 0) (r 2)
  | ⟨3, _⟩ => r 4
  | ⟨4, _⟩ => crossAdd (r 1) (r 2) (r 0) (r 3)
  | ⟨5, _⟩ => FloatOps.subf (FloatOps.addf (FloatOps.subf (sq (r 0)) (sq (r 1))) (sq (r 2))) (sq (r 3))
  | ⟨6, _⟩ => crossSub (r 2) (r 3) (r 0) (r 1)
  | ⟨7, _⟩ => r 5
  | ⟨8, _⟩ => crossSub (r 1) (r 3) (r 0) (r 2)
  | ⟨9, _⟩ => crossAdd (r 2) (r 3) (r 0) (r 1)
  | ⟨10, _⟩ => FloatOps.addf (FloatOps.subf (FloatOps.subf (sq (r 0)) (sq (r 1))) (sq (r 2))) (sq (r 3))
  | ⟨11, _⟩ => r 6
  | ⟨_ + 12, h⟩ => absurd h (by omega)

/-- Row `b` of the input array, as its seven numbers. -/
abbrev rowOf (x : (⟨2, ![4000000, 7]⟩ : Shape).Idx → F .f32) (b : Fin 4000000) : Fin 7 → F .f32 :=
  fun k => x (ix2 b k)

/-- The poses laid flat, twelve to a row: entry (b, e) is entry e of row b's pose. -/
def poseFlat (x : (⟨2, ![4000000, 7]⟩ : Shape).Idx → F .f32) : (⟨2, ![4000000, 12]⟩ : Shape).Idx → F .f32 :=
  fun i => poseRow (rowOf x (i 0)) (i 1)

/-- Where entry (u, v) of a 3 × 4 matrix sits among its twelve numbers in row-major order. -/
abbrev at34 (u : Fin 3) (v : Fin 4) : Fin 12 := ⟨4 * u.val + v.val, by omega⟩

/-- The layer: entry (b, u, v) of the result is entry (u, v) of row b's pose. -/
def pose (x : (⟨2, ![4000000, 7]⟩ : Shape).Idx → F .f32) : (⟨3, ![4000000, 3, 4]⟩ : Shape).Idx → F .f32 :=
  fun i => poseRow (rowOf x (i 0)) (at34 (i 1) (i 2))

end Cert.Pose

end
-- ==== Proof.UnitCols.lean ====
/-
  Columns set side by side. An array of shape [R, N] built by concatenating N columns of shape [R, 1] along
  its second axis holds, at (p, c), what column c holds at (p, 0): the columns before c take up c places, so
  place c is the one place of column c. The columns may be any list; which one stands at place `k` is read off the
  list itself.
-/
import Idealize.ShloMosaic.Lib.Pipeline.Value
import Idealize.ShloMosaic.Lib.ValueIdx

noncomputable section

namespace Cert.Pose

open Idealize.ShloMosaic Idealize.ShloMosaic.ValueIdx

/-- A concatenation along axis 1 of pieces into [R, N], read at (p, c), when the piece at place `k = c` of the list is a
    column [R, 1] and the pieces before it fill exactly `k` places: that column at (p, 0). -/
theorem unitCols_apply {α : Type} {R N : Nat} (xs : List ((s : Shape) × (s.Idx → α)))
    (h : Shape.Concatenates (xs.map (·.1)) (⟨2, ![R, N]⟩ : Shape) 1)
    (k : Nat) (hk : k < xs.length) (col : (⟨2, ![R, 1]⟩ : Shape).Idx → α)
    (hxk : xs[k] = ⟨(⟨2, ![R, 1]⟩ : Shape), col⟩)
    (hpre : (((xs.take k).map (·.1)).map fun s : Shape =>
      if h : s.rank = (⟨2, ![R, N]⟩ : Shape).rank then s.size ((1 : Fin 2).cast h.symm) else 0).sum = k)
    (p : Fin R) (c : Fin N) (hc : c.val = k) :
    concatenate (⟨2, ![R, N]⟩ : Shape) 1 xs h (ix2 p c) = col (ix2 p (0 : Fin 1)) :=
  concatenate_apply_piece (1 : Fin 2) xs h (ix2 p c) k hk (⟨2, ![R, 1]⟩ : Shape) col hxk rfl k hpre
    (ix2 p (0 : Fin 1))
    (fun b hb => match b with
      | ⟨0, _⟩ => rfl
      | ⟨1, _⟩ => absurd rfl hb)
    (by show k + 0 = c.val; omega)

end Cert.Pose

end
-- ==== Proof.KernelBlock.lean ====
/-
  What one grid step writes. The step loads a block of 4000 rows of the input, cuts its seven columns apart,
  forms the nine rotation entries column by column, sets the twelve columns [r00 r01 r02 tx r10 r11 r12 ty r20
  r21 r22 tz] side by side and stores them as the 4000 × 12 output block. Read at (p, e): entry e of the pose
  of the block's row p. Nothing here depends on the float instance: each column is the same tree of products,
  sums and differences the specification spells, over the row's own numbers.
-/
import proofs.«127864_j72378788873083_1_alg».proof.Proof.Gen.KernelIdeal.Frame
import proofs.«127864_j72378788873083_1_alg».proof.Proof.PoseSpec
import proofs.«127864_j72378788873083_1_alg».proof.Proof.UnitCols
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Pose

variable {F : FTy → Type} [FloatOps F]

/-- The offsets of a whole-block access are all zero. -/
theorem zeros2 : (![0, 0] : Fin 2 → Nat) = fun _ => 0 := funext fun a => by fin_cases a <;> rfl

/-- Column `k` cut out of a block, read at row `p`: the block's entry (p, k). -/
theorem comp_apply (x0 : Vec F S4000x7 .f32) (k : Nat) (hk : k < 7) (h : S4000x7.Slices ![0, k] S4000x1) (p : Fin 4000) :
    extractStridedSlice S4000x1 ![0, k] x0 h (ix2 p (0 : Fin 1)) = x0 (ix2 p (⟨k, hk⟩ : Fin 7)) :=
  extractStridedSlice_apply ![0, k] x0 h (ix2 p (0 : Fin 1)) (ix2 p (⟨k, hk⟩ : Fin 7)) (fun a => match a with
    | ⟨0, _⟩ => by show p.val = 0 + p.val; omega
    | ⟨1, _⟩ => by show k = k + 0; omega)

/-- THE BLOCK a grid step leaves in the output window, at (p, e): entry `e` of the pose of row `p` of the input block. -/
theorem block_apply (x0 : Vec F S4000x7 .f32) (p : Fin 4000) (e : Fin 12) :
    out0_1 x0 (ix2 p e) = poseRow (fun k : Fin 7 => x0 (ix2 p k)) e := by
  have c0 : ∀ h, extractStridedSlice S4000x1 ![0, 0] x0 h (ix2 p (0 : Fin 1)) = x0 (ix2 p (0 : Fin 7)) :=
    fun h => comp_apply x0 0 (by omega) h p
  have c1 : ∀ h, extractStridedSlice S4000x1 ![0, 1] x0 h (ix2 p (0 : Fin 1)) = x0 (ix2 p (1 : Fin 7)) :=
    fun h => comp_apply x0 1 (by omega) h p
  have c2 : ∀ h, extractStridedSlice S4000x1 ![0, 2] x0 h (ix2 p (0 : Fin 1)) = x0 (ix2 p (2 : Fin 7)) :=
    fun h => comp_apply x0 2 (by omega) h p
  have c3 : ∀ h, extractStridedSlice S4000x1 ![0, 3] x0 h (ix2 p (0 : Fin 1)) = x0 (ix2 p (3 : Fin 7)) :=
    fun h => comp_apply x0 3 (by omega) h p
  have c4 : ∀ h, extractStridedSlice S4000x1 ![0, 4] x0 h (ix2 p (0 : Fin 1)) = x0 (ix2 p (4 : Fin 7)) :=
    fun h => comp_apply x0 4 (by omega) h p
  have c5 : ∀ h, extractStridedSlice S4000x1 ![0, 5] x0 h (ix2 p (0 : Fin 1)) = x0 (ix2 p (5 : Fin 7)) :=
    fun h => comp_apply x0 5 (by omega) h p
  have c6 : ∀ h, extractStridedSlice S4000x1 ![0, 6] x0 h (ix2 p (0 : Fin 1)) = x0 (ix2 p (6 : Fin 7)) :=
    fun h => comp_apply x0 6 (by omega) h p
  unfold out0_1
  rw [View.canon_unit_zero zeros2]
  simp only [View.ld_unit_zero (S := S4000x7) zeros2]
  simp only [k0_pay3]
  match e with
  | ⟨0, _⟩ =>
    refine (unitCols_apply _ _ 0 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨1, _⟩ =>
    refine (unitCols_apply _ _ 1 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨2, _⟩ =>
    refine (unitCols_apply _ _ 2 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨3, _⟩ =>
    refine (unitCols_apply _ _ 3 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨4, _⟩ =>
    refine (unitCols_apply _ _ 4 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨5, _⟩ =>
    refine (unitCols_apply _ _ 5 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨6, _⟩ =>
    refine (unitCols_apply _ _ 6 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨7, _⟩ =>
    refine (unitCols_apply _ _ 7 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨8, _⟩ =>
    refine (unitCols_apply _ _ 8 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨9, _⟩ =>
    refine (unitCols_apply _ _ 9 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨10, _⟩ =>
    refine (unitCols_apply _ _ 10 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨11, _⟩ =>
    refine (unitCols_apply _ _ 11 (by simp) _ rfl rfl p _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, mulf, addf, subf, broadcast, c0, c1, c2, c3, c4, c5, c6]
    rfl
  | ⟨_ + 12, h⟩ => exact absurd h (by omega)

end Cert.KernelIdeal.Block

end
-- ==== Proof.KernelArray.lean ====
/-
  From blocks to the array. Grid step t reads rows 4000 t … 4000 t + 3999 of the input and writes the same
  rows of the flat [B, 12] output, all columns at once; the thousand steps tile the rows, so after the run the
  flat output holds, at (b, e), entry e of the pose of the input's row b.
-/
import proofs.«127864_j72378788873083_1_alg».proof.Proof.Gen.KernelIdeal.Frame
import proofs.«127864_j72378788873083_1_alg».proof.Proof.KernelBlock
import Idealize.ShloMosaic.Lib.Pipeline.Value

noncomputable section

namespace Cert.KernelIdeal.Flat

open Cert.KernelIdeal Cert.KernelIdeal.Gen Idealize.ShloMosaic Idealize.ShloMosaic.TcCoe Idealize.SL.Sem
open Idealize.ShloMosaic.ValueIdx Cert.Pose
open Idealize.ShloMosaic.Pipeline (Dat)

variable {F : FTy → Type} [FloatOps F]
variable (m : (ℓ : Loc nD τ sig) → Buf (Elt F) ℓ)

/-- The printed index maps over the grid: step `t` takes block `t` of the rows, of the input and of the output alike,
    and the one block of columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT STEP `t` WRITES BACK is block `t` of the flat poses of the input array. -/
theorem flushed_eq (c : Dev nD) (t : Fin cfg0.N) :
    (dats m 0 c).flushed 1 t = ((cfg0.win 1).blk t).view.read (Elt F) (poseFlat (V m c main_arg0)) := by
  show (cfg0.win 1).cut (grid0.coords t) ((dats m 0 c).after 1 t) = _
  rw [after0_1]
  obtain ⟨e0, e1, e2, e3⟩ := idx_facts t
  funext j
  obtain ⟨p, q, rfl⟩ : ∃ (p : Fin 4000) (q : Fin 12), j = ix2 p q := ⟨j 0, j 1, eq_ix2 j⟩
  show out0_1 (iblk m c 0 t) (ix2 p q) = poseFlat (V m c main_arg0) (((cfg0.win 1).blk t).view.emb (ix2 p q))
  refine (Block.block_apply (iblk m c 0 t) p q).trans ?_
  -- the output block's column is the array's column; the input block's row p is the array's row 4000 t + p
  have hq : ((cfg0.win 1).blk t).view.emb (ix2 p q) (1 : Fin 2) = q :=
    Fin.ext (by show win0_1.index t (1 : Fin 2) * 12 + 1 * q.val = q.val; omega)
  have hrow : (fun k : Fin 7 => iblk m c 0 t (ix2 p k))
      = rowOf (V m c main_arg0) (((cfg0.win 1).blk t).view.emb (ix2 p q) (0 : Fin 2)) := by
    funext k
    show V m c main_arg0 (((cfg0.win 0).blk t).view.emb (ix2 p k))
      = V m c main_arg0 (ix2 (((cfg0.win 1).blk t).view.emb (ix2 p q) (0 : Fin 2)) k)
    refine congrArg _ (funext fun a => Fin.ext ?_)
    match a with
    | ⟨0, _⟩ =>
      show win0_0.index t (0 : Fin 2) * 4000 + 1 * p.val = win0_1.index t (0 : Fin 2) * 4000 + 1 * p.val
      omega
    | ⟨1, _⟩ =>
      show win0_0.index t (1 : Fin 2) * 7 + 1 * k.val = k.val
      omega
  show poseRow _ q = poseRow _ _
  rw [hrow, hq]

/-- An index of the flat array is in step `t`'s block iff each coordinate is in the block's range on its axis. -/
theorem mem_blk (t : Fin cfg0.N) (i : S4000000x12.Idx) :
    i ∈ ((cfg0.win 1).blk t).view.set ↔ ∀ a : Fin 2, win0_1.index t a * S4000x12.size a ≤ (i a).val
      ∧ (i a).val < win0_1.index t a * S4000x12.size a + S4000x12.size a := by
  show i ∈ ((View.whole main_v0).slice (win0_1.rect t)).set ↔ _
  rw [View.set_slice_whole, Rect.mem_set_unit]
  exact Iff.rfl

/-- THE BLOCKS TILE THE ROWS: row `b` is written by step `b / 4000`. -/
theorem cover (i : S4000000x12.Idx) :
    ∃ t : Fin cfg0.N, (cfg0.win 1).flush t = true ∧ i ∈ ((cfg0.win 1).blk t).view.set := by
  have hi0 : (i 0).val < 4000000 := (i 0).isLt
  have hi1 : (i 1).val < 12 := (i 1).isLt
  have hN : (i 0).val / 4000 < cfg0.N := by show _ < grid0.N; rw [N_0]; omega
  obtain ⟨-, -, e2, e3⟩ := idx_facts ⟨(i 0).val / 4000, hN⟩
  refine ⟨⟨(i 0).val / 4000, hN⟩, flush0_1 _, ?_⟩
  rw [mem_blk]
  intro a
  match a with
  | ⟨0, _⟩ =>
    show win0_1.index ⟨(i 0).val / 4000, hN⟩ (0 : Fin 2) * 4000 ≤ (i 0).val
      ∧ (i 0).val < win0_1.index ⟨(i 0).val / 4000, hN⟩ (0 : Fin 2) * 4000 + 4000
    rw [e2]; show (i 0).val / 4000 * 4000 ≤ (i 0).val ∧ (i 0).val < (i 0).val / 4000 * 4000 + 4000
    omega
  | ⟨1, _⟩ =>
    show win0_1.index ⟨(i 0).val / 4000, hN⟩ (1 : Fin 2) * 12 ≤ (i 1).val
      ∧ (i 1).val < win0_1.index ⟨(i 0).val / 4000, hN⟩ (1 : Fin 2) * 12 + 12
    rw [e3]; omega

/-- THE FLAT ARRAY after the run: the poses of the argument's rows, twelve to a row. -/
theorem final (c : Dev nD) :
    (dats m 0 c).arrAt 1 cfg0.N = poseFlat (m ((c : Thread nD τ).loc main_arg0)) :=
  ((dats m 0 c).arrAt_eq_of_cover 1 (poseFlat (V m c main_arg0)) (fun t _ => flushed_eq m c t) cover).trans
    (congrArg poseFlat (V_main_arg0 m c))

end Cert.KernelIdeal.Flat

end
-- ==== Proof.KernelRun.lean ====
/-
  The kernel's program, run. After the pallas_call the flat [B, 12] array holds the poses twelve to a row
  (the blocks tile it); the one host operation after it, a reshape to [B, 3, 4], keeps row-major positions,
  and position (b, 4 u + v) of the flat array is position (b, u, v) of the result. So the program ends with
  the layer's function of its argument, and the argument as it was.
-/
import proofs.«127864_j72378788873083_1_alg».proof.Proof.Gen.KernelIdeal.Frame
import proofs.«127864_j72378788873083_1_alg».proof.Proof.KernelArray
import Idealize.ShloMosaic.Lib.Pipeline.Value
import Idealize.ShloMosaic.Lib.StableHlo.Run

noncomputable section

namespace Cert.KernelIdeal.PoseRun

open Cert.KernelIdeal Cert.KernelIdeal.Gen Idealize.ShloMosaic Idealize.ShloMosaic.TcCoe Idealize.SL.Sem
open Idealize.ShloMosaic.ValueIdx Cert.Pose
open Idealize.ShloMosaic.Pipeline (Dat)

variable {F : FTy → Type} [FloatOps F]
variable (m : (ℓ : Loc nD τ sig) → Buf (Elt F) ℓ) (ρ : Dev nD → PrngReg)

/-- The flat poses reshaped to [B, 3, 4] are the poses: the reshape keeps the row-major position,
    `12 b + (4 u + v) = (3 b + u) 4 + v`. -/
theorem reshape_flat (x : S4000000x7.Idx → Elt F .f32) (h : S4000000x12.ShapeCasts S4000000x3x4) :
    shapeCast S4000000x3x4 (poseFlat x) h = pose x := by
  funext i
  obtain ⟨b, u, v, rfl⟩ : ∃ (b : Fin 4000000) (u : Fin 3) (v : Fin 4), i = ix3 b u v := ⟨i 0, i 1, i 2, eq_ix3 i⟩
  exact shapeCast_apply (poseFlat x) h (ix3 b u v) (ix2 b (at34 u v))
    (by rw [Shape.rowMajor_val_two, Shape.rowMajor_val_three]
        show b.val * 12 + (4 * u.val + v.val) = (b.val * 3 + u.val) * 4 + v.val
        omega)

/-- What the host operation after the region leaves in the result buffer. -/
theorem tail_eq (c : Dev nD) :
    Pipeline.afterTail₀ cfgs (dats m) 0 (V0 m) [hostOps1] c main_v1 = pose (m ((c : Thread nD τ).loc main_arg0)) := by
  unfold Pipeline.afterTail₀
  show StableHlo.after hostOps1 _ (Proc.devRef .tc main_v1) = _
  after_results
  -- the reshape's operand is the region's output array, which is the flat poses of the argument
  have hw : (Pipeline.withArrays (cfgs 0).spec c (V0 m c) (fun w => (dats m 0 c).arrAt w (cfgs 0).N)
      (Proc.devRef .tc main_v0) : S4000000x12.Idx → Elt F .f32) = poseFlat (m ((c : Thread nD τ).loc main_arg0)) :=
    (Pipeline.withArrays_arr spec0 launch0.win.arr_inj c (V0 m c) (fun w => (dats m 0 c).arrAt w cfg0.N) 1).trans
      (Flat.final m c)
  funext i
  show shapeCast S4000000x3x4 _ shapeCasts_S4000000x12_S4000000x3x4 i = _
  rw [hw, reshape_flat]

/-- THE KERNEL'S PROGRAM, RUN: every weakly fair execution terminates with the result buffer at the layer's function of
    the argument array, and the argument array unchanged. -/
theorem run : θ_run defs (onTc (τ := τ) (main (F := F))) ⟨m, fun _ => 0, ρ⟩ fun r => ∀ c : Dev nD,
      r.2.mem ((c : Thread nD τ).loc main_v1) = pose (m ((c : Thread nD τ).loc main_arg0))
      ∧ r.2.mem ((c : Thread nD τ).loc main_arg0) = m ((c : Thread nD τ).loc main_arg0) :=
  (θ_run defs _ _).mono (fun r h c =>
    ⟨((h c).2 main_v1 (Pipeline.mem_restRefs_of main_v1 rfl (by decide))).trans (tail_eq m c),
     ((h c).1 0).trans (((dats m 0 c).arrAt_in 0 rfl _).trans ((A_eq m c 0).trans (V_main_arg0 m c)))⟩)
    (run_main m ρ)

end Cert.KernelIdeal.PoseRun

end
-- ==== Proof.RefPose.lean ====
/-
  The reference, read entry by entry. It takes the four quaternion columns of the input apart as vectors of
  length B, forms the nine rotation entries as such vectors, stands them side by side as [B, 9], reshapes to
  [B, 3, 3] and appends the translation columns [B, 3, 1] on the last axis. Entry (b, u, v) of the result is,
  for v < 3, entry 3 u + v of the nine — the same tree of products, sums and differences the specification
  spells for entry 4 u + v of the twelve — and for v = 3 the input's entry (b, 4 + u). The reading is pure
  bookkeeping of indices: a slice shifts a coordinate, a reshape keeps the row-major position, a broadcast
  drops a unit axis, a concatenation picks the piece its coordinate falls in.
-/
import proofs.«127864_j72378788873083_1_alg».proof.Proof.Gen.ReferenceIdeal.Read
import proofs.«127864_j72378788873083_1_alg».proof.Proof.PoseSpec
import proofs.«127864_j72378788873083_1_alg».proof.Proof.UnitCols
import Idealize.ShloMosaic.Lib.Pipeline.Value
import Idealize.ShloMosaic.Lib.ValueIdx

noncomputable section

namespace Cert.ReferenceIdeal.RefPose

open Cert.ReferenceIdeal Cert.ReferenceIdeal.Gen Cert.ReferenceIdeal.Read Idealize.ShloMosaic Idealize.ShloMosaic.ValueIdx Cert.Pose

variable {F : FTy → Type} [FloatOps F]

/-! ## The four quaternion components as vectors over the rows -/

theorem q0_apply (x : S4000000x7.Idx → Elt F .f32) (j : S4000000.Idx) : val_main_v1 (F := F) x j = x (ix2 (j 0) (0 : Fin 7)) := by
  rw [val_main_v1_apply, val_main_v0_apply]
  exact congrArg x (funext fun a => Fin.ext (match a with
    | ⟨0, _⟩ => by show (j 0).val / 1 = (j 0).val; omega
    | ⟨1, _⟩ => rfl))

theorem q1_apply (x : S4000000x7.Idx → Elt F .f32) (j : S4000000.Idx) : val_main_v3 (F := F) x j = x (ix2 (j 0) (1 : Fin 7)) := by
  rw [val_main_v3_apply, val_main_v2_apply]
  exact congrArg x (funext fun a => Fin.ext (match a with
    | ⟨0, _⟩ => by show (j 0).val / 1 = (j 0).val; omega
    | ⟨1, _⟩ => rfl))

theorem q2_apply (x : S4000000x7.Idx → Elt F .f32) (j : S4000000.Idx) : val_main_v5 (F := F) x j = x (ix2 (j 0) (2 : Fin 7)) := by
  rw [val_main_v5_apply, val_main_v4_apply]
  exact congrArg x (funext fun a => Fin.ext (match a with
    | ⟨0, _⟩ => by show (j 0).val / 1 = (j 0).val; omega
    | ⟨1, _⟩ => rfl))

theorem q3_apply (x : S4000000x7.Idx → Elt F .f32) (j : S4000000.Idx) : val_main_v7 (F := F) x j = x (ix2 (j 0) (3 : Fin 7)) := by
  rw [val_main_v7_apply, val_main_v6_apply]
  exact congrArg x (funext fun a => Fin.ext (match a with
    | ⟨0, _⟩ => by show (j 0).val / 1 = (j 0).val; omega
    | ⟨1, _⟩ => rfl))

/-! ## The nine rotation entries as vectors over the rows -/

section Entries
variable (x : S4000000x7.Idx → Elt F .f32) (j : S4000000.Idx)

local macro "read_entry" : tactic => `(tactic| (
  simp only [val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply,
    q0_apply, q1_apply, q2_apply, q3_apply]))

theorem r00_apply : val_main_v15 (F := F) x j = poseRow (rowOf x (j 0)) (0 : Fin 12) := by
  read_entry
  rfl

theorem r01_apply : val_main_v22 (F := F) x j = poseRow (rowOf x (j 0)) (1 : Fin 12) := by
  read_entry
  rfl

theorem r02_apply : val_main_v29 (F := F) x j = poseRow (rowOf x (j 0)) (2 : Fin 12) := by
  read_entry
  rfl

theorem r10_apply : val_main_v36 (F := F) x j = poseRow (rowOf x (j 0)) (4 : Fin 12) := by
  read_entry
  rfl

theorem r11_apply : val_main_v39 (F := F) x j = poseRow (rowOf x (j 0)) (5 : Fin 12) := by
  read_entry
  rfl

theorem r12_apply : val_main_v46 (F := F) x j = poseRow (rowOf x (j 0)) (6 : Fin 12) := by
  read_entry
  rfl

theorem r20_apply : val_main_v53 (F := F) x j = poseRow (rowOf x (j 0)) (8 : Fin 12) := by
  read_entry
  rfl

theorem r21_apply : val_main_v60 (F := F) x j = poseRow (rowOf x (j 0)) (9 : Fin 12) := by
  read_entry
  rfl

theorem r22_apply : val_main_v63 (F := F) x j = poseRow (rowOf x (j 0)) (10 : Fin 12) := by
  read_entry
  rfl

end Entries

/-! ## The nine as columns [B, 1], stood side by side as [B, 9] and reshaped to [B, 3, 3] -/

section Columns
variable (x : S4000000x7.Idx → Elt F .f32) (b : Fin 4000000)

theorem col0_apply : val_main_v64 (F := F) x (ix2 b (0 : Fin 1)) = poseRow (rowOf x b) (0 : Fin 12) := by
  rw [val_main_v64_apply]
  exact r00_apply x _

theorem col1_apply : val_main_v65 (F := F) x (ix2 b (0 : Fin 1)) = poseRow (rowOf x b) (1 : Fin 12) := by
  rw [val_main_v65_apply]
  exact r01_apply x _

theorem col2_apply : val_main_v66 (F := F) x (ix2 b (0 : Fin 1)) = poseRow (rowOf x b) (2 : Fin 12) := by
  rw [val_main_v66_apply]
  exact r02_apply x _

theorem col3_apply : val_main_v67 (F := F) x (ix2 b (0 : Fin 1)) = poseRow (rowOf x b) (4 : Fin 12) := by
  rw [val_main_v67_apply]
  exact r10_apply x _

theorem col4_apply : val_main_v68 (F := F) x (ix2 b (0 : Fin 1)) = poseRow (rowOf x b) (5 : Fin 12) := by
  rw [val_main_v68_apply]
  exact r11_apply x _

theorem col5_apply : val_main_v69 (F := F) x (ix2 b (0 : Fin 1)) = poseRow (rowOf x b) (6 : Fin 12) := by
  rw [val_main_v69_apply]
  exact r12_apply x _

theorem col6_apply : val_main_v70 (F := F) x (ix2 b (0 : Fin 1)) = poseRow (rowOf x b) (8 : Fin 12) := by
  rw [val_main_v70_apply]
  exact r20_apply x _

theorem col7_apply : val_main_v71 (F := F) x (ix2 b (0 : Fin 1)) = poseRow (rowOf x b) (9 : Fin 12) := by
  rw [val_main_v71_apply]
  exact r21_apply x _

theorem col8_apply : val_main_v72 (F := F) x (ix2 b (0 : Fin 1)) = poseRow (rowOf x b) (10 : Fin 12) := by
  rw [val_main_v72_apply]
  exact r22_apply x _

/-- Entry (u, v) of the rotation block of row `b`: place 3 u + v of the nine, which is entry 4 u + v of the twelve. -/
theorem rot_apply (u : Fin 3) (v : Fin 3) :
    val_main_v74 (F := F) x (ix3 b u v) = poseRow (rowOf x b) (at34 u ⟨v.val, by omega⟩) := by
  rw [val_main_v74_apply]
  have hidx : idx_main_v74 (ix3 b u v) = ix2 b (⟨3 * u.val + v.val, by omega⟩ : Fin 9) :=
    funext fun a => Fin.ext (match a with
      | ⟨0, _⟩ => by show ((b.val * 3 + u.val) * 3 + v.val) / 9 = b.val; omega
      | ⟨1, _⟩ => by show ((b.val * 3 + u.val) * 3 + v.val) % 9 = 3 * u.val + v.val; omega)
  rw [hidx]
  unfold val_main_v73
  match u, v with
  | ⟨0, _⟩, ⟨0, _⟩ => exact (unitCols_apply _ _ 0 (by simp) _ rfl rfl b _ rfl).trans (col0_apply x b)
  | ⟨0, _⟩, ⟨1, _⟩ => exact (unitCols_apply _ _ 1 (by simp) _ rfl rfl b _ rfl).trans (col1_apply x b)
  | ⟨0, _⟩, ⟨2, _⟩ => exact (unitCols_apply _ _ 2 (by simp) _ rfl rfl b _ rfl).trans (col2_apply x b)
  | ⟨1, _⟩, ⟨0, _⟩ => exact (unitCols_apply _ _ 3 (by simp) _ rfl rfl b _ rfl).trans (col3_apply x b)
  | ⟨1, _⟩, ⟨1, _⟩ => exact (unitCols_apply _ _ 4 (by simp) _ rfl rfl b _ rfl).trans (col4_apply x b)
  | ⟨1, _⟩, ⟨2, _⟩ => exact (unitCols_apply _ _ 5 (by simp) _ rfl rfl b _ rfl).trans (col5_apply x b)
  | ⟨2, _⟩, ⟨0, _⟩ => exact (unitCols_apply _ _ 6 (by simp) _ rfl rfl b _ rfl).trans (col6_apply x b)
  | ⟨2, _⟩, ⟨1, _⟩ => exact (unitCols_apply _ _ 7 (by simp) _ rfl rfl b _ rfl).trans (col7_apply x b)
  | ⟨2, _⟩, ⟨2, _⟩ => exact (unitCols_apply _ _ 8 (by simp) _ rfl rfl b _ rfl).trans (col8_apply x b)

end Columns

/-! ## The result: the rotation block with the translation appended as a fourth column -/

/-- THE REFERENCE'S RESULT at (b, u, v): entry (u, v) of the pose of the input's row `b`. -/
theorem ref_apply (x : S4000000x7.Idx → Elt F .f32) (b : Fin 4000000) (u : Fin 3) (v : Fin 4) :
    val_main_v76 (F := F) x (ix3 b u v) = poseRow (rowOf x b) (at34 u v) := by
  unfold val_main_v76
  by_cases hv : v.val < 3
  · refine (concatenate_pair_apply_left (s₁ := S4000000x3x3) (s₂ := S4000000x3x1) (2 : Fin 3) _ _ _ (ix3 b u v) rfl (ix3 b u (⟨v.val, hv⟩ : Fin 3))
      (fun a => match a with | ⟨0, _⟩ => rfl | ⟨1, _⟩ => rfl | ⟨2, _⟩ => rfl)).trans ?_
    exact rot_apply x b u ⟨v.val, hv⟩
  · have hv3 : v = (3 : Fin 4) := Fin.ext (by have := v.isLt; show v.val = 3; omega)
    subst hv3
    refine (concatenate_pair_apply_right (s₁ := S4000000x3x3) (s₂ := S4000000x3x1) (2 : Fin 3) _ _ _ (ix3 b u (3 : Fin 4)) rfl rfl (ix3 b u (0 : Fin 1))
      (fun a ha => match a with | ⟨0, _⟩ => rfl | ⟨1, _⟩ => rfl | ⟨2, _⟩ => absurd rfl ha) rfl).trans ?_
    rw [val_main_v75_apply, val_main_v8_apply]
    match u with
    | ⟨0, _⟩ =>
      exact congrArg x (funext fun a => Fin.ext (match a with | ⟨0, _⟩ => rfl | ⟨1, _⟩ => rfl))
    | ⟨1, _⟩ =>
      exact congrArg x (funext fun a => Fin.ext (match a with | ⟨0, _⟩ => rfl | ⟨1, _⟩ => rfl))
    | ⟨2, _⟩ =>
      exact congrArg x (funext fun a => Fin.ext (match a with | ⟨0, _⟩ => rfl | ⟨1, _⟩ => rfl))

/-- The reference's result array is the layer's function of the input array. -/
theorem ref_eq (x : S4000000x7.Idx → Elt F .f32) : val_main_v76 (F := F) x = pose x := by
  funext i
  obtain ⟨b, u, v, rfl⟩ : ∃ (b : Fin 4000000) (u : Fin 3) (v : Fin 4), i = ix3 b u v := ⟨i 0, i 1, i 2, eq_ix3 i⟩
  exact ref_apply x b u v

end Cert.ReferenceIdeal.RefPose

end
-- ==== Proof.lean ====
/-
  Quaternion and position to pose matrix: each row (q0, q1, q2, q3, tx, ty, tz) of a [4000000, 7] array goes to the
  3 × 4 matrix [R(q) | t], R(q) the rotation matrix of the quaternion written out in products of its components.

  The kernel streams the rows through in a thousand blocks of 4000; on each block it cuts the seven columns
  apart, forms the nine entries of R column by column, sets twelve columns [r00 r01 r02 tx r10 r11 r12 ty r20 r21
  r22 tz] side by side into a [4000, 12] block, and after the last block the [4000000, 12] array is reshaped to
  [4000000, 3, 4]. The reference forms the same nine entries over whole columns of length 4000000, stacks them to
  [4000000, 9], reshapes to [4000000, 3, 3] and appends the translation as a fourth column.

  Both spell every entry with the same grouping of the same operations on the same numbers — a diagonal entry as
  ((q0² ± q1²) ± q2²) ± q3², an off-diagonal one as (2·u)·v ± (2·w)·z with one and the same word for 2 — so the two
  results are equal term by term: no law of arithmetic is needed, the equality holds at every float instance, and
  the finiteness of the inputs is never used. What the proof does is bookkeeping of places: the blocks tile the
  rows, entry (b, 4 u + v) of the flat array is entry (b, u, v) of its reshape, entry (b, 3 u + v) of the nine is
  entry (b, u, v) of the rotation block, and column 4 + u of the input is entry (b, u, 3).
    PoseSpec      the layer as one function: a row's twelve numbers, the flat array, the result
    UnitCols      a concatenation of unit-width columns read at an index
    KernelBlock   what one grid step writes is the poses of its block's rows
    KernelArray   the blocks tile the rows: the flat array after the run
    KernelRun     the reshape after the region; the kernel's program ends with the layer's function
    RefPose       the reference's result, read entry by entry, is the layer's function
-/
import proofs.«127864_j72378788873083_1_alg».proof.Defs
import proofs.«127864_j72378788873083_1_alg».proof.Proof.Gen.Kernel
import proofs.«127864_j72378788873083_1_alg».proof.Proof.Gen.Kernel.Skeleton
import proofs.«127864_j72378788873083_1_alg».proof.Proof.Gen.Kernel.Launch
import proofs.«127864_j72378788873083_1_alg».proof.Proof.Gen.Kernel.Points
import proofs.«127864_j72378788873083_1_alg».proof.Proof.Gen.Kernel.Frame
import proofs.«127864_j72378788873083_1_alg».proof.Proof.Gen.KernelIdeal
import proofs.«127864_j72378788873083_1_alg».proof.Proof.Gen.KernelIdeal.Skeleton
import proofs.«127864_j72378788873083_1_alg».proof.Proof.Gen.KernelIdeal.Launch
import proofs.«127864_j72378788873083_1_alg».proof.Proof.Gen.KernelIdeal.Points
import proofs.«127864_j72378788873083_1_alg».proof.Proof.Gen.KernelIdeal.Frame
import proofs.«127864_j72378788873083_1_alg».proof.Proof.Gen.ReferenceIdeal
import proofs.«127864_j72378788873083_1_alg».proof.Proof.Gen.Pre_finite_inputs
import proofs.«127864_j72378788873083_1_alg».proof.Proof.Gen.ReferenceIdeal.Run
import proofs.«127864_j72378788873083_1_alg».proof.Proof.Gen.ReferenceIdeal.Read
import proofs.«127864_j72378788873083_1_alg».proof.Proof.KernelRun
import proofs.«127864_j72378788873083_1_alg».proof.Proof.RefPose
import Idealize.ShloMosaic.Adequacy
import Idealize.ShloMosaic.Init

noncomputable section

namespace Cert.Proof

open Idealize.ShloMosaic Idealize.ShloMosaic.TcCoe Idealize.SL.Sem

/-- The word-level kernel runs and leaves its argument as it was: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the layer's function of their argument arrays, and the
    argument arrays agree. -/
theorem algebraic : Cert.algebraic_KernelIdeal_ReferenceIdeal := by
  intro m ρ m' ρ' _ hagree
  refine ⟨_, Cert.KernelIdeal.PoseRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefPose.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
